-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S64x512x512 : Shape := ⟨3, ![64, 512, 512]⟩
abbrev S_ : Shape := ⟨0, ![]⟩

class Facts : Prop where

variable [Facts]

def fn {F : FTy → Type} [FloatOps F] (main_arg0 : IVec S64x512x512 32) (main_arg1 : IVec S64x512x512 32) : IVec S_ 1 :=
  let main_c : IVec S_ 1 := constantI S_ 1 1#1
  main_c
-- ==== Kernel.lean ====
abbrev S64x512x512 : Shape := ⟨3, ![64, 512, 512]⟩
abbrev S32768x512 : Shape := ⟨2, ![32768, 512]⟩
abbrev S2x8x512 : Shape := ⟨3, ![2, 8, 512]⟩
abbrev S2048x512 : Shape := ⟨2, ![2048, 512]⟩
abbrev S1x8x512 : Shape := ⟨3, ![1, 8, 512]⟩
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S512 : Shape := ⟨1, ![512]⟩
abbrev S512x1 : Shape := ⟨2, ![512, 1]⟩
abbrev S256x1 : Shape := ⟨2, ![256, 1]⟩
abbrev S128x1 : Shape := ⟨2, ![128, 1]⟩
abbrev S64x1 : Shape := ⟨2, ![64, 1]⟩
abbrev S32x1 : Shape := ⟨2, ![32, 1]⟩
abbrev S16x1 : Shape := ⟨2, ![16, 1]⟩
abbrev S8x1 : Shape := ⟨2, ![8, 1]⟩
abbrev S4x1 : Shape := ⟨2, ![4, 1]⟩
abbrev S2x1 : Shape := ⟨2, ![2, 1]⟩
abbrev S1x1 : Shape := ⟨2, ![1, 1]⟩
abbrev S_ : Shape := ⟨0, ![]⟩
abbrev S20 : Shape := ⟨1, ![20]⟩

abbrev nBuf : Space → Nat
  | .hbm => 62
  | .vmem => 4
  | .smem => 0
  | _ => 0

abbrev bufTy : (tb : Table) → Fin (tcTables nBuf tb) → BufTy
  | .hbm, ⟨0, _⟩ => ⟨S64x512x512, .i32⟩
  | .hbm, ⟨1, _⟩ => ⟨S64x512x512, .i32⟩
  | .hbm, ⟨2, _⟩ => ⟨S32768x512, .i32⟩
  | .hbm, ⟨3, _⟩ => ⟨S2x8x512, .i32⟩
  | .hbm, ⟨4, _⟩ => ⟨S1x8x512, .i32⟩
  | .hbm, ⟨5, _⟩ => ⟨S8x512, .i32⟩
  | .hbm, ⟨6, _⟩ => ⟨S1x8x512, .i32⟩
  | .hbm, ⟨7, _⟩ => ⟨S8x512, .i32⟩
  | .hbm, ⟨8, _⟩ => ⟨S8x512, .i32⟩
  | .hbm, ⟨9, _⟩ => ⟨S4x512, .i32⟩
  | .hbm, ⟨10, _⟩ => ⟨S4x512, .i32⟩
  | .hbm, ⟨11, _⟩ => ⟨S4x512, .i32⟩
  | .hbm, ⟨12, _⟩ => ⟨S2x512, .i32⟩
  | .hbm, ⟨13, _⟩ => ⟨S2x512, .i32⟩
  | .hbm, ⟨14, _⟩ => ⟨S2x512, .i32⟩
  | .hbm, ⟨15, _⟩ => ⟨S1x512, .i32⟩
  | .hbm, ⟨16, _⟩ => ⟨S1x512, .i32⟩
  | .hbm, ⟨17, _⟩ => ⟨S1x512, .i32⟩
  | .hbm, ⟨18, _⟩ => ⟨S512, .i32⟩
  | .hbm, ⟨19, _⟩ => ⟨S512x1, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S128x1, .i32⟩
  | .hbm, ⟨24, _⟩ => ⟨S128x1, .i32⟩
  | .hbm, ⟨25, _⟩ => ⟨S128x1, .i32⟩
  | .hbm, ⟨26, _⟩ => ⟨S64x1, .i32⟩
  | .hbm, ⟨27, _⟩ => ⟨S64x1, .i32⟩
  | .hbm, ⟨28, _⟩ => ⟨S64x1, .i32⟩
  | .hbm, ⟨29, _⟩ => ⟨S32x1, .i32⟩
  | .hbm, ⟨30, _⟩ => ⟨S32x1, .i32⟩
  | .hbm, ⟨31, _⟩ => ⟨S32x1, .i32⟩
  | .hbm, ⟨32, _⟩ => ⟨S16x1, .i32⟩
  | .hbm, ⟨33, _⟩ => ⟨S16x1, .i32⟩
  | .hbm, ⟨34, _⟩ => ⟨S16x1, .i32⟩
  | .hbm, ⟨35, _⟩ => ⟨S8x1, .i32⟩
  | .hbm, ⟨36, _⟩ => ⟨S8x1, .i32⟩
  | .hbm, ⟨37, _⟩ => ⟨S8x1, .i32⟩
  | .hbm, ⟨38, _⟩ => ⟨S4x1, .i32⟩
  | .hbm, ⟨39, _⟩ => ⟨S4x1, .i32⟩
  | .hbm, ⟨40, _⟩ => ⟨S4x1, .i32⟩
  | .hbm, ⟨41, _⟩ => ⟨S2x1, .i32⟩
  | .hbm, ⟨42, _⟩ => ⟨S2x1, .i32⟩
  | .hbm, ⟨43, _⟩ => ⟨S2x1, .i32⟩
  | .hbm, ⟨44, _⟩ => ⟨S1x1, .i32⟩
  | .hbm, ⟨45, _⟩ => ⟨S1x1, .i32⟩
  | .hbm, ⟨46, _⟩ => ⟨S1x1, .i32⟩
  | .hbm, ⟨47, _⟩ => ⟨S_, .i32⟩
  | .hbm, ⟨48, _⟩ => ⟨S20, .i32⟩
  | .hbm, ⟨49, _⟩ => ⟨S_, .i32⟩
  | .hbm, ⟨50, _⟩ => ⟨S20, .i32⟩
  | .hbm, ⟨51, _⟩ => ⟨S20, .i32⟩
  | .hbm, ⟨52, _⟩ => ⟨S20, .i32⟩
  | .hbm, ⟨53, _⟩ => ⟨S20, .i32⟩
  | .hbm, ⟨54, _⟩ => ⟨S_, .i32⟩
  | .hbm, ⟨55, _⟩ => ⟨S20, .i32⟩
  | .hbm, ⟨56, _⟩ => ⟨S20, .i32⟩
  | .hbm, ⟨57, _⟩ => ⟨S20, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S2048x512, .i32⟩
  | .local _ .vmem, ⟨1, _⟩ => ⟨S2048x512, .i32⟩
  | .local _ .vmem, ⟨2, _⟩ => ⟨S1x8x512, .i32⟩
  | .local _ .vmem, ⟨3, _⟩ => ⟨S1x8x512, .i32⟩
  | _, _ => ⟨S64x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_c : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_c_0 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_cst : Ref sig .tc := ⟨.hbm, 58, rfl⟩
abbrev main_v54 : Ref sig .tc := ⟨.hbm, 59, rfl⟩
abbrev main_cst_1 : Ref sig .tc := ⟨.hbm, 60, rfl⟩
abbrev main_v55 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x512x512_S32768x512 : S64x512x512.ShapeCasts S32768x512
  inb_S1x8x512_S1x8x512_0_0_0 : ∀ a, (![0, 0, 0] : Fin 3 → Nat) a + S1x8x512.size a ≤ S1x8x512.size a
  h_S1x8x512 : 0 < S1x8x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  slices_S2048x512_o0_0_S1024x512 : S2048x512.Slices ![0, 0] S1024x512
  slices_S2048x512_o1024_0_S1024x512 : S2048x512.Slices ![1024, 0] S1024x512
  slices_S1024x512_o0_0_S512x512 : S1024x512.Slices ![0, 0] S512x512
  slices_S1024x512_o512_0_S512x512 : S1024x512.Slices ![512, 0] S512x512
  slices_S512x512_o0_0_S256x512 : S512x512.Slices ![0, 0] S256x512
  slices_S512x512_o256_0_S256x512 : S512x512.Slices ![256, 0] S256x512
  slices_S256x512_o0_0_S128x512 : S256x512.Slices ![0, 0] S128x512
  slices_S256x512_o128_0_S128x512 : S256x512.Slices ![128, 0] S128x512
  slices_S128x512_o0_0_S64x512 : S128x512.Slices ![0, 0] S64x512
  slices_S128x512_o64_0_S64x512 : S128x512.Slices ![64, 0] S64x512
  slices_S64x512_o0_0_S32x512 : S64x512.Slices ![0, 0] S32x512
  slices_S64x512_o32_0_S32x512 : S64x512.Slices ![32, 0] S32x512
  slices_S32x512_o0_0_S16x512 : S32x512.Slices ![0, 0] S16x512
  slices_S32x512_o16_0_S16x512 : S32x512.Slices ![16, 0] S16x512
  slices_S16x512_o0_0_S8x512 : S16x512.Slices ![0, 0] S8x512
  slices_S16x512_o8_0_S8x512 : S16x512.Slices ![8, 0] S8x512
  shapeCasts_S1x8x512_S1x8x512 : S1x8x512.ShapeCasts S1x8x512
  shapeCasts_S8x512_S1x8x512 : S8x512.ShapeCasts S1x8x512
  slices_S2x8x512_S1x8x512_0_0_0 : S2x8x512.Slices ![0, 0, 0] S1x8x512
  shapeCasts_S1x8x512_S8x512 : S1x8x512.ShapeCasts S8x512
  slices_S2x8x512_S1x8x512_1_0_0 : S2x8x512.Slices ![1, 0, 0] S1x8x512
  slices_S8x512_S4x512_0_0 : S8x512.Slices ![0, 0] S4x512
  slices_S8x512_S4x512_4_0 : S8x512.Slices ![4, 0] S4x512
  slices_S4x512_S2x512_0_0 : S4x512.Slices ![0, 0] S2x512
  slices_S4x512_S2x512_2_0 : S4x512.Slices ![2, 0] S2x512
  slices_S2x512_S1x512_0_0 : S2x512.Slices ![0, 0] S1x512
  slices_S2x512_S1x512_1_0 : S2x512.Slices ![1, 0] S1x512
  shapeCasts_S1x512_S512 : S1x512.ShapeCasts S512
  shapeCasts_S512_S512x1 : S512.ShapeCasts S512x1
  slices_S512x1_S256x1_0_0 : S512x1.Slices ![0, 0] S256x1
  slices_S512x1_S256x1_256_0 : S512x1.Slices ![256, 0] S256x1
  slices_S256x1_S128x1_0_0 : S256x1.Slices ![0, 0] S128x1
  slices_S256x1_S128x1_128_0 : S256x1.Slices ![128, 0] S128x1
  slices_S128x1_S64x1_0_0 : S128x1.Slices ![0, 0] S64x1
  slices_S128x1_S64x1_64_0 : S128x1.Slices ![64, 0] S64x1
  slices_S64x1_S32x1_0_0 : S64x1.Slices ![0, 0] S32x1
  slices_S64x1_S32x1_32_0 : S64x1.Slices ![32, 0] S32x1
  slices_S32x1_S16x1_0_0 : S32x1.Slices ![0, 0] S16x1
  slices_S32x1_S16x1_16_0 : S32x1.Slices ![16, 0] S16x1
  slices_S16x1_S8x1_0_0 : S16x1.Slices ![0, 0] S8x1
  slices_S16x1_S8x1_8_0 : S16x1.Slices ![8, 0] S8x1
  slices_S8x1_S4x1_0_0 : S8x1.Slices ![0, 0] S4x1
  slices_S8x1_S4x1_4_0 : S8x1.Slices ![4, 0] S4x1
  slices_S4x1_S2x1_0_0 : S4x1.Slices ![0, 0] S2x1
  slices_S4x1_S2x1_2_0 : S4x1.Slices ![2, 0] S2x1
  slices_S2x1_S1x1_0_0 : S2x1.Slices ![0, 0] S1x1
  slices_S2x1_S1x1_1_0 : S2x1.Slices ![1, 0] S1x1
  shapeCasts_S1x1_S_ : S1x1.ShapeCasts S_
  bcast_S_S20 : S_.BroadcastsInDim S20 (![] : Fin 0 → Fin S20.rank)
  reducesTo_S20_S_d0 : S20.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .i32 = 32 ∨ (Rect.block (s := S32768x512) S2048x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S2x8x512.size a
  hwx0_1 : ∀ i : grid0.Coords, EltTy.bits .i32 = 32 ∨ (Rect.block (s := S2x8x512) S1x8x512.size (cc0_transform_1 i) (hinb0_1 i)).WholeWords (EltTy.packing .i32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S16777216 : Shape := ⟨1, ![16777216]⟩
abbrev S_ : Shape := ⟨0, ![]⟩
abbrev S21 : Shape := ⟨1, ![21]⟩
abbrev S16777216x1 : Shape := ⟨2, ![16777216, 1]⟩
abbrev S20 : Shape := ⟨1, ![20]⟩

abbrev nBuf : Space → Nat
  | .hbm => 29
  | .vmem => 0
  | .smem => 0
  | _ => 0

abbrev bufTy : (tb : Table) → Fin (tcTables nBuf tb) → BufTy
  | .hbm, ⟨0, _⟩ => ⟨S64x512x512, .i32⟩
  | .hbm, ⟨1, _⟩ => ⟨S64x512x512, .i32⟩
  | .hbm, ⟨2, _⟩ => ⟨S16777216, .i32⟩
  | .hbm, ⟨3, _⟩ => ⟨S_, .i32⟩
  | .hbm, ⟨4, _⟩ => ⟨S21, .i32⟩
  | .hbm, ⟨5, _⟩ => ⟨S_, .i32⟩
  | .hbm, ⟨6, _⟩ => ⟨S_, .i32⟩
  | .hbm, ⟨7, _⟩ => ⟨S16777216, .i32⟩
  | .hbm, ⟨8, _⟩ => ⟨S16777216, .i32⟩
  | .hbm, ⟨9, _⟩ => ⟨S_, .i32⟩
  | .hbm, ⟨10, _⟩ => ⟨S16777216, .i32⟩
  | .hbm, ⟨11, _⟩ => ⟨S16777216, .i1⟩
  | .hbm, ⟨12, _⟩ => ⟨S_, .i32⟩
  | .hbm, ⟨13, _⟩ => ⟨S16777216, .i32⟩
  | .hbm, ⟨14, _⟩ => ⟨S16777216, .i32⟩
  | .hbm, ⟨15, _⟩ => ⟨S16777216, .i32⟩
  | .hbm, ⟨16, _⟩ => ⟨S16777216x1, .i32⟩
  | .hbm, ⟨17, _⟩ => ⟨S_, .i32⟩
  | .hbm, ⟨18, _⟩ => ⟨S16777216, .i32⟩
  | .hbm, ⟨19, _⟩ => ⟨S21, .i32⟩
  | .hbm, ⟨20, _⟩ => ⟨S20, .i32⟩
  | .hbm, ⟨21, _⟩ => ⟨S_, .i32⟩
  | .hbm, ⟨22, _⟩ => ⟨S20, .i32⟩
  | .hbm, ⟨23, _⟩ => ⟨S20, .i1⟩
  | .hbm, ⟨24, _⟩ => ⟨S20, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S64x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  shapeCasts_S64x512x512_S16777216 : S64x512x512.ShapeCasts S16777216
  bcast_S_S21 : S_.BroadcastsInDim S21 (![] : Fin 0 → Fin S21.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  slices_S21_S20_1 : S21.Slices ![1] S20
  bcast_S_S20 : S_.BroadcastsInDim S20 (![] : Fin 0 → Fin S20.rank)
  reducesTo_S20_S_d0 : S20.ReducesTo [0] S_
  h_S_ : 0 < S_.numel
  scatter_S21_S16777216x1_S16777216_n_0_0_1_wf : ScatterDims.WF S21 S16777216x1 S16777216 [] [0] [0] 1

variable [Facts₀]

def scatter_S21_S16777216x1_S16777216_n_0_0_1 : ScatterDims S21 S16777216x1 S16777216 where
  updateWindowDims := []
  insertedWindowDims := [0]
  scatterDimsToOperandDims := [0]
  indexVectorDim := 1
  wf := scatter_S21_S16777216x1_S16777216_n_0_0_1_wf

class Facts : Prop extends Facts₀ where

variable [Facts]
-- ==== Proof.KernelPieces.lean ====
/-
  What each control case of the kernel body leaves in the accumulator block.

  At a step that opens a core's run of eight (the reset case) the body stores zero words, reads them
  back, and stores the step's OR over them; at every other step it reads the block the step before
  left and stores the step's OR over that. Read back as values, the block after a reset step is the
  step function applied to the tile and the zero block, and after any other step the step function
  applied to the tile and the previous block.
-/
import proofs.«425760_j48533130444893_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem offs2 : (![0, 0] : Fin 2 → Nat) = fun _ => 0 := funext fun a => by fin_cases a <;> rfl
theorem offs3 : (![0, 0, 0] : Fin 3 → Nat) = fun _ => 0 := funext fun a => by fin_cases a <;> rfl

/-- A step that is not a reset: over the previous block `prev`, the step function of the tile `x`. -/
theorem after_step (c : Dev nD) (i : grid0.Coords) (a2 : Memref sig .tc .vmem S2048x512 .i32) (h2 : a2.IsWhole)
    (a3 : Memref sig .tc .vmem S1x8x512 .i32) (h3 : a3.IsWhole) (hc : ¬cond0_0 i)
    (x : Vec F S2048x512 .i32) (prev : Vec F S1x8x512 .i32) :
    out0_B_1 c i a2 h2 a3 h3 hc x prev = k0_pay2 x prev := by
  unfold out0_B_1
  rw [View.read_writes_eq_canon _ _ _ (cover0_B_1 c i a2 h2 a3 h3 hc x prev)]
  unfold kernelRun0_B
  dsimp only
  sl_unfold_words
  rw [View.canon_unit_zero offs3]
  simp only [View.readAt_eq_ld, h2.read_unread, h3.read_unread, View.ld_unit_zero (S := S2048x512) offs2,
    View.ld_unit_zero (S := S1x8x512) offs3]

/-- A reset step: the step function of the tile `x` over the zero block. -/
theorem after_reset (c : Dev nD) (i : grid0.Coords) (a2 : Memref sig .tc .vmem S2048x512 .i32) (h2 : a2.IsWhole)
    (a3 : Memref sig .tc .vmem S1x8x512 .i32) (h3 : a3.IsWhole) (hc : cond0_0 i)
    (x : Vec F S2048x512 .i32) :
    out0_A_1 c i a2 h2 a3 h3 hc x = k0_pay2 x k0_pay1 := by
  unfold out0_A_1
  rw [View.read_writes_eq_canon _ _ _ (cover0_A_1 c i a2 h2 a3 h3 hc x)]
  unfold kernelRun0_A
  dsimp only
  sl_unfold_words
  rw [View.canon_cons_unit_zero (S := S1x8x512) offs3, View.readCov_unit_zero (S := S1x8x512) _ offs3]
  simp only [View.readAt_eq_ld, h2.read_unread, View.ld_unit_zero (S := S2048x512) offs2]

end Cert.KernelIdeal.Pieces

end
-- ==== Proof.Presence.lean ====
/-
  Which bits occur in a vector of 32-bit words.

  `Has c v` says that some word of `v` has bit `c` set. OR-ing two vectors word by word joins the
  two answers; re-laying a vector under another shape keeps the answer; a vector of zero words has no
  bit; and when a vector is cut into two blocks that together cover it, a bit occurs in the vector
  exactly when it occurs in one of the blocks. That is all an OR-reduction by repeated halving needs:
  each halving step `lower half ||| upper half` keeps `Has c` unchanged, so the last word standing
  has bit `c` set exactly when some word of the original vector had.
-/
import Idealize.ShloMosaic.PureOps
import Idealize.ShloMosaic.Lib.ValueIdx
import Idealize.ShloMosaic.Lib.Pipeline.Value

namespace Cert.Presence

open Idealize.ShloMosaic Idealize.ShloMosaic.ValueIdx

/-- Some word of `v` has bit `c` set. -/
def Has {s : Shape} (c : ℕ) (v : IVec s 32) : Prop := ∃ i : s.Idx, (v i).getLsbD c = true

/-- A word-by-word OR has a bit exactly when one of the operands has it. -/
theorem has_ori {s : Shape} (c : ℕ) (a b : IVec s 32) : Has c (ori a b) ↔ Has c a ∨ Has c b := by
  constructor
  · rintro ⟨i, hi⟩
    have : ((a i) ||| (b i)).getLsbD c = true := hi
    rw [BitVec.getLsbD_or, Bool.or_eq_true] at this
    exact this.elim (fun h => Or.inl ⟨i, h⟩) (fun h => Or.inr ⟨i, h⟩)
  · rintro (⟨i, hi⟩ | ⟨i, hi⟩)
    · exact ⟨i, show ((a i) ||| (b i)).getLsbD c = true by rw [BitVec.getLsbD_or, hi, Bool.true_or]⟩
    · exact ⟨i, show ((a i) ||| (b i)).getLsbD c = true by rw [BitVec.getLsbD_or, hi, Bool.or_true]⟩

/-- The same words under another shape have the same bits. -/
theorem has_shapeCast {s t : Shape} (c : ℕ) (v : IVec s 32) (h : s.ShapeCasts t) :
    Has c (shapeCast t v h) ↔ Has c v := by
  constructor
  · rintro ⟨j, hj⟩
    exact ⟨Shape.reshapeEquiv h j, hj⟩
  · rintro ⟨i, hi⟩
    refine ⟨(Shape.reshapeEquiv h).symm i, ?_⟩
    show (v (Shape.reshapeEquiv h ((Shape.reshapeEquiv h).symm i))).getLsbD c = true
    rw [Equiv.apply_symm_apply]; exact hi

/-- A vector of zero words has no bit. -/
theorem not_has_zero {s : Shape} (c : ℕ) : ¬ Has c (broadcast s (0#32 : BitVec 32)) := by
  rintro ⟨i, hi⟩
  have : (0#32 : BitVec 32).getLsbD c = true := hi
  simp at this

/-- A block of a vector has only bits the vector has. -/
theorem has_of_slice {s t : Shape} (c : ℕ) (off : Fin s.rank → ℕ) (v : IVec s 32) (h : s.Slices off t) :
    Has c (extractStridedSlice t off v h) → Has c v := by
  rintro ⟨j, hj⟩
  exact ⟨_, hj⟩

/-- Two blocks that together cover a vector have, between them, exactly the vector's bits. -/
theorem has_two_slices {s t : Shape} (c : ℕ) (v : IVec s 32) (off0 off1 : Fin s.rank → ℕ)
    (h0 : s.Slices off0 t) (h1 : s.Slices off1 t)
    (hcov : ∀ i : s.Idx, (∃ j : t.Idx, ∀ a : Fin s.rank, (i a).val = off0 a + (j (a.cast h0.1.symm)).val)
      ∨ (∃ j : t.Idx, ∀ a : Fin s.rank, (i a).val = off1 a + (j (a.cast h1.1.symm)).val)) :
    (Has c (extractStridedSlice t off0 v h0) ∨ Has c (extractStridedSlice t off1 v h1)) ↔ Has c v := by
  constructor
  · rintro (h | h)
    · exact has_of_slice c off0 v h0 h
    · exact has_of_slice c off1 v h1 h
  · rintro ⟨i, hi⟩
    rcases hcov i with ⟨j, hj⟩ | ⟨j, hj⟩
    · exact Or.inl ⟨j, by rw [extractStridedSlice_apply off0 v h0 j i hj]; exact hi⟩
    · exact Or.inr ⟨j, by rw [extractStridedSlice_apply off1 v h1 j i hj]; exact hi⟩

/-- One halving step of a row reduction: the rows `0 … n-1` OR-ed with the rows `n … 2n-1` of a
    `2n × k` vector have exactly the bits of the vector. -/
theorem has_halve_rows {m n k : ℕ} (hm : m = n + n) (c : ℕ) (v : IVec ⟨2, ![m, k]⟩ 32)
    (h0 : (⟨2, ![m, k]⟩ : Shape).Slices ![0, 0] ⟨2, ![n, k]⟩)
    (h1 : (⟨2, ![m, k]⟩ : Shape).Slices ![n, 0] ⟨2, ![n, k]⟩) :
    Has c (ori (extractStridedSlice ⟨2, ![n, k]⟩ ![0, 0] v h0) (extractStridedSlice ⟨2, ![n, k]⟩ ![n, 0] v h1))
      ↔ Has c v := by
  rw [has_ori]
  refine has_two_slices c v _ _ h0 h1 fun i => ?_
  have hi0 : (i 0).val < m := (i 0).isLt
  by_cases hlt : (i 0).val < n
  · refine Or.inl ⟨ix2 ⟨(i 0).val, hlt⟩ (i 1), fun a => ?_⟩
    match a with
    | ⟨0, _⟩ => show (i 0).val = 0 + (i 0).val; omega
    | ⟨1, _⟩ => show (i 1).val = 0 + (i 1).val; omega
  · refine Or.inr ⟨ix2 ⟨(i 0).val - n, by omega⟩ (i 1), fun a => ?_⟩
    match a with
    | ⟨0, _⟩ => show (i 0).val = n + ((i 0).val - n); omega
    | ⟨1, _⟩ => show (i 1).val = 0 + (i 1).val; omega

/-- The two leading slabs of a `2 × a × b` vector have, between them, exactly the vector's bits. -/
theorem has_two_slabs {a b : ℕ} (c : ℕ) (v : IVec ⟨3, ![2, a, b]⟩ 32)
    (h0 : (⟨3, ![2, a, b]⟩ : Shape).Slices ![0, 0, 0] ⟨3, ![1, a, b]⟩)
    (h1 : (⟨3, ![2, a, b]⟩ : Shape).Slices ![1, 0, 0] ⟨3, ![1, a, b]⟩) :
    (Has c (extractStridedSlice ⟨3, ![1, a, b]⟩ ![0, 0, 0] v h0) ∨ Has c (extractStridedSlice ⟨3, ![1, a, b]⟩ ![1, 0, 0] v h1))
      ↔ Has c v := by
  refine has_two_slices c v _ _ h0 h1 fun i => ?_
  have hi0 : (i 0).val < 2 := (i 0).isLt
  by_cases hlt : (i 0).val = 0
  · refine Or.inl ⟨ix3 ⟨0, by omega⟩ (i 1) (i 2), fun a => ?_⟩
    match a with
    | ⟨0, _⟩ => show (i 0).val = 0 + 0; omega
    | ⟨1, _⟩ => show (i 1).val = 0 + (i 1).val; omega
    | ⟨2, _⟩ => show (i 2).val = 0 + (i 2).val; omega
  · refine Or.inr ⟨ix3 ⟨0, by omega⟩ (i 1) (i 2), fun a => ?_⟩
    match a with
    | ⟨0, _⟩ => show (i 0).val = 1 + 0; omega
    | ⟨1, _⟩ => show (i 1).val = 0 + (i 1).val; omega
    | ⟨2, _⟩ => show (i 2).val = 0 + (i 2).val; omega

/-! ## Words -/

/-- The one-hot word `1 <<< y` of the vector unit (zero when `y`, read unsigned, is 32 or more) has bit
    `c < 32` set exactly when `y` is `c`. -/
theorem one_shl_getLsbD (y : BitVec 32) (c : ℕ) (hc : c < 32) :
    (IntOp.shli .vector (1#32) y).getLsbD c = true ↔ y.toNat = c := by
  unfold IntOp.shli
  by_cases hy : y.toNat < 32
  · rw [if_pos hy, BitVec.shiftLeft_eq', BitVec.getLsbD_shiftLeft, BitVec.getLsbD_one]
    simp only [Bool.and_eq_true, decide_eq_true_eq, Bool.not_eq_true', decide_eq_false_iff_not]
    omega
  · rw [if_neg hy]
    have : IntOp.cornerWord .vector .shli (1#32 : BitVec 32) y = 0#32 := by
      simp [IntOp.cornerWord]
    rw [this]
    simp only [BitVec.getLsbD_zero, Bool.false_eq_true, false_iff]
    omega

/-- The one-hot words `1 <<< x` of a vector `x` have bit `c < 32` exactly when some word of `x` is `c`. -/
theorem has_one_shl {s : Shape} (c : ℕ) (hc : c < 32) (x : IVec s 32) :
    Has c (shli (broadcast s (1#32 : BitVec 32)) x) ↔ ∃ i : s.Idx, (x i).toNat = c := by
  constructor
  · rintro ⟨i, hi⟩
    exact ⟨i, (one_shl_getLsbD (x i) c hc).mp hi⟩
  · rintro ⟨i, hi⟩
    exact ⟨i, (one_shl_getLsbD (x i) c hc).mpr hi⟩

end Cert.Presence
-- ==== Proof.KernelTile.lean ====
/-
  What one grid step of the kernel adds to the running OR.

  A step loads a tile of 2048 × 512 labels, turns each label `y` into the one-hot word `1 <<< y`, and
  halves the rows eight times, each time OR-ing the upper half onto the lower, until 8 rows are left;
  those are OR-ed into the 1 × 8 × 512 accumulator block. Bit `c` (for `c < 32`) therefore occurs in the
  new accumulator exactly when it occurred in the old one or some label of the tile is `c`: every
  halving keeps the set of occurring bits, and the one-hot word has bit `c` exactly for the label `c`.
  The reset stores zero words, which have no bit.
-/
import proofs.«425760_j48533130444893_2_alg».proof.Proof.Gen.KernelIdeal.Skeleton
import proofs.«425760_j48533130444893_2_alg».proof.Proof.Presence

namespace Cert.KernelIdeal.Tile

open Idealize.ShloMosaic Cert.KernelIdeal Cert.KernelIdeal.Gen Cert.Presence

variable {F : FTy → Type} [FloatOps F]

/-- The accumulator after a step has bit `c` exactly when it had it before or the tile holds the label `c`. -/
theorem has_step (c : ℕ) (hc : c < 32) (x : Vec F S2048x512 .i32) (acc : Vec F S1x8x512 .i32) :
    Has c (k0_pay2 (F := F) x acc) ↔ (Has c (acc : IVec S1x8x512 32) ∨ ∃ i : S2048x512.Idx, (x i : BitVec 32).toNat = c) := by
  unfold k0_pay2
  dsimp only
  rw [has_ori, has_shapeCast, has_shapeCast,
    has_halve_rows (n := 8) rfl, has_halve_rows (n := 16) rfl, has_halve_rows (n := 32) rfl,
    has_halve_rows (n := 64) rfl, has_halve_rows (n := 128) rfl, has_halve_rows (n := 256) rfl,
    has_halve_rows (n := 512) rfl, has_halve_rows (n := 1024) rfl, has_one_shl c hc, shapeCast_self]

/-- The reset block has no bit. -/
theorem not_has_reset (c : ℕ) : ¬ Has c (k0_pay1 : IVec S1x8x512 32) := by
  unfold k0_pay1
  exact not_has_zero c

end Cert.KernelIdeal.Tile
-- ==== Proof.KernelAcc.lean ====
/-
  The kernel's accumulator over the grid, and the array it leaves.

  The grid has 16 steps: core `q` (0 or 1) runs the steps `8q … 8q + 7`, step `8q` resets the core's
  1 × 8 × 512 block and every step ORs its tile's one-hot words into it; the block is written back to
  slab `q` of the 2 × 8 × 512 result after step `8q + 7`. By induction on the step, bit `b` occurs in the
  block after step `n` exactly when the label `b` occurs in one of the tiles of the steps `8⌊n/8⌋ … n`.
  The two write-backs go to different slabs and together cover the result, so bit `b` occurs in the
  result exactly when the label `b` occurs in one of the sixteen tiles; the tiles cover the re-laid
  image, so exactly when it occurs in the image.
-/
import proofs.«425760_j48533130444893_2_alg».proof.Proof.KernelPieces
import proofs.«425760_j48533130444893_2_alg».proof.Proof.KernelTile
import Idealize.ShloMosaic.Lib.StableHlo.Run

set_option maxRecDepth 16384

noncomputable section

namespace Cert.KernelIdeal.Acc

open Idealize.ShloMosaic Idealize.ShloMosaic.TcCoe Idealize.SL.Sem
open Idealize.ShloMosaic.Pipeline (Dat)
open Idealize.ShloMosaic.StableHlo
open Cert.KernelIdeal Cert.KernelIdeal.Gen Cert.Presence Cert.KernelIdeal.Tile Cert.KernelIdeal.Pieces

variable {F : FTy → Type} [FloatOps F]
variable (m : (ℓ : Loc nD τ sig) → Buf (Elt F) ℓ)

/-- The tile of labels step `t` loads. -/
abbrev tile (c : Dev nD) (t : Fin cfg0.N) : Vec F S2048x512 .i32 := iblk m c 0 t

/-- The label `b` occurs in the tile of step `k`. -/
def TileHas (c : Dev nD) (b : ℕ) (k : ℕ) (hk : k < cfg0.N) : Prop :=
  ∃ i : S2048x512.Idx, ((tile m c ⟨k, hk⟩ i : BitVec 32)).toNat = b

/-- THE INVARIANT: after step `n` the accumulator block has bit `b` exactly when the label `b` occurs in a tile
    of the same core's steps up to `n`. -/
theorem has_outsAt (c : Dev nD) (b : ℕ) (hb : b < 32) : ∀ (n : ℕ) (hn : n < cfg0.N),
    Has b (outsAt0 m c n hn : IVec S1x8x512 32)
      ↔ ∃ (k : ℕ) (hk : k < cfg0.N), k / 8 = n / 8 ∧ k ≤ n ∧ TileHas m c b k hk := by
  intro n
  induction n with
  | zero =>
    intro hn
    rw [outsAt0_A m c ⟨0, hn⟩ rfl, after_reset, has_step b hb]
    constructor
    · rintro (h | h)
      · exact absurd h (not_has_reset b)
      · exact ⟨0, hn, rfl, le_refl _, h⟩
    · rintro ⟨k, hk, -, hle, h⟩
      obtain rfl : k = 0 := by omega
      exact Or.inr h
  | succ n ih =>
    intro hn
    by_cases h0 : (n + 1) % 8 = 0
    · rw [outsAt0_A m c ⟨n + 1, hn⟩ h0, after_reset, has_step b hb]
      constructor
      · rintro (h | h)
        · exact absurd h (not_has_reset b)
        · exact ⟨n + 1, hn, rfl, le_refl _, h⟩
      · rintro ⟨k, hk, hdiv, hle, h⟩
        obtain rfl : k = n + 1 := by omega
        exact Or.inr h
    · rw [outsAt0_B m c ⟨n + 1, hn⟩ h0, after_step, has_step b hb]
      refine (or_congr (ih (Nat.lt_of_succ_lt hn)) Iff.rfl).trans ?_
      constructor
      · rintro (⟨k, hk, hdiv, hle, h⟩ | h)
        · exact ⟨k, hk, by omega, by omega, h⟩
        · exact ⟨n + 1, hn, rfl, le_refl _, h⟩
      · rintro ⟨k, hk, hdiv, hle, h⟩
        by_cases hkn : k = n + 1
        · subst hkn
          exact Or.inr h
        · exact Or.inl ⟨k, hk, by omega, by omega, h⟩

/-! ## The write-backs -/

/-- A step's accumulator block is written back to slab `⌊t / 8⌋` of the result (when it is written back at all). -/
theorem slab_index : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)

/-- Step `t` loads the tile of rows `2048 t … 2048 t + 2047` of the re-laid image. -/
theorem tile_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- An index of the result lies in the slab step `t` writes back iff each coordinate is in the slab's range. -/
theorem mem_slab (t : Fin cfg0.N) (i : S2x8x512.Idx) :
    i ∈ ((cfg0.win 1).blk t).view.set ↔ ∀ a : Fin 3, win0_1.index t a * S1x8x512.size a ≤ (i a).val ∧ (i a).val < win0_1.index t a * S1x8x512.size a + S1x8x512.size a := by
  show i ∈ ((View.whole main_v1).slice (win0_1.rect t)).set ↔ _
  rw [View.set_slice_whole, Rect.mem_set_unit]
  exact Iff.rfl

/-- An index of the re-laid image lies in step `t`'s tile iff each coordinate is in the tile's range. -/
theorem mem_tile (t : Fin cfg0.N) (i : S32768x512.Idx) :
    i ∈ ((cfg0.win 0).blk t).view.set ↔ ∀ a : Fin 2, win0_0.index t a * S2048x512.size a ≤ (i a).val ∧ (i a).val < win0_0.index t a * S2048x512.size a + S2048x512.size a := by
  show i ∈ ((View.whole main_v0).slice (win0_0.rect t)).set ↔ _
  rw [View.set_slice_whole, Rect.mem_set_unit]
  exact Iff.rfl

/-- Two different write-backs go to different slabs. -/
theorem slabs_disjoint : ∀ t t' : Fin cfg0.N, (cfg0.win 1).flush t = true → (cfg0.win 1).flush t' = true → t ≠ t' →
    Disjoint ((cfg0.win 1).blk t).view.set ((cfg0.win 1).blk t').view.set := by
  intro t t' hf hf' hne
  rw [Finset.disjoint_left]
  intro i hi hi'
  have h7 := (flush0_1 t).mp hf
  have h7' := (flush0_1 t').mp hf'
  have e := ((mem_slab t i).mp hi) 0
  have e' := ((mem_slab t' i).mp hi') 0
  have s := (slab_index t).1
  have s' := (slab_index t').1
  have e0 : win0_1.index t (0 : Fin 3) * 1 ≤ (i 0).val ∧ (i 0).val < win0_1.index t (0 : Fin 3) * 1 + 1 := e
  have e0' : win0_1.index t' (0 : Fin 3) * 1 ≤ (i 0).val ∧ (i 0).val < win0_1.index t' (0 : Fin 3) * 1 + 1 := e'
  exact hne (Fin.ext (by omega))

/-- Every index of the result lies in a slab that is written back. -/
theorem slabs_cover (i : S2x8x512.Idx) : ∃ t : Fin cfg0.N, (cfg0.win 1).flush t = true ∧ i ∈ ((cfg0.win 1).blk t).view.set := by
  have hN : cfg0.N = 16 := N_0
  have hi0 : (i 0).val < 2 := (i 0).isLt
  have hi1 : (i 1).val < 8 := (i 1).isLt
  have hi2 : (i 2).val < 512 := (i 2).isLt
  refine ⟨⟨8 * (i 0).val + 7, by omega⟩, (flush0_1 _).mpr (by dsimp only; omega), ?_⟩
  rw [mem_slab]
  obtain ⟨s0, s1, s2⟩ := slab_index ⟨8 * (i 0).val + 7, by omega⟩
  intro a
  match a with
  | ⟨0, _⟩ => show win0_1.index _ (0 : Fin 3) * 1 ≤ (i 0).val ∧ (i 0).val < win0_1.index _ (0 : Fin 3) * 1 + 1; rw [s0]; dsimp only; omega
  | ⟨1, _⟩ => show win0_1.index _ (1 : Fin 3) * 8 ≤ (i 1).val ∧ (i 1).val < win0_1.index _ (1 : Fin 3) * 8 + 8; rw [s1]; omega
  | ⟨2, _⟩ => show win0_1.index _ (2 : Fin 3) * 512 ≤ (i 2).val ∧ (i 2).val < win0_1.index _ (2 : Fin 3) * 512 + 512; rw [s2]; omega

/-- What a write-back writes is the accumulator block as the step left it. -/
theorem flushed_slab (c : Dev nD) (t : Fin cfg0.N) :
    (dats m 0 c).flushed 1 t = (outsAt0 m c t.val t.isLt : Vec F S1x8x512 .i32) := by
  show (cfg0.win 1).cut (grid0.coords t) ((dats m 0 c).after 1 t) = _
  rw [after0_1]
  rfl

/-- THE RESULT OF THE GRID: bit `b` occurs in the 2 × 8 × 512 result exactly when the label `b` occurs in one of the
    sixteen tiles. -/
theorem has_result_tiles (c : Dev nD) (b : ℕ) (hb : b < 32) :
    Has b ((dats m 0 c).arrAt 1 cfg0.N : IVec S2x8x512 32) ↔ ∃ (k : ℕ) (hk : k < cfg0.N), TileHas m c b k hk := by
  have hN : cfg0.N = 16 := N_0
  constructor
  · rintro ⟨i, hi⟩
    refine (dats m 0 c).arrAt_forall_of_cover 1
      (fun _ v => (v : BitVec 32).getLsbD b = true → ∃ (k : ℕ) (hk : k < cfg0.N), TileHas m c b k hk) ?_ slabs_cover i hi
    intro t hf y hy
    rw [flushed_slab] at hy
    obtain ⟨k, hk, -, -, h⟩ := (has_outsAt m c b hb t.val t.isLt).mp ⟨y, hy⟩
    exact ⟨k, hk, h⟩
  · rintro ⟨k, hk, h⟩
    have hk16 : k < 16 := hN ▸ hk
    have ht : 8 * (k / 8) + 7 < cfg0.N := by omega
    have hf : (cfg0.win 1).flush ⟨8 * (k / 8) + 7, ht⟩ = true := (flush0_1 _).mpr (by dsimp only; omega)
    obtain ⟨y, hy⟩ := (has_outsAt m c b hb (8 * (k / 8) + 7) ht).mpr ⟨k, hk, by omega, by omega, h⟩
    refine ⟨((cfg0.win 1).blk ⟨8 * (k / 8) + 7, ht⟩).view.emb y, ?_⟩
    rw [(dats m 0 c).arrAt_emb_eq_flushed 1 slabs_disjoint ⟨8 * (k / 8) + 7, ht⟩ hf y, flushed_slab]
    exact hy

/-! ## The tiles cover the image -/

/-- A tile's entry is the re-laid image's entry under it. -/
theorem tile_apply (c : Dev nD) (t : Fin cfg0.N) (y : S2048x512.Idx) :
    tile m c t y = V m c main_v0 (((cfg0.win 0).blk t).view.emb y) := by
  show iblk m c 0 t y = _
  unfold iblk
  rw [View.read_apply]
  rfl

/-- The label `b` occurs in one of the sixteen tiles exactly when it occurs in the re-laid image. -/
theorem tiles_iff (c : Dev nD) (b : ℕ) :
    (∃ (k : ℕ) (hk : k < cfg0.N), TileHas m c b k hk) ↔ ∃ i : S32768x512.Idx, ((V m c main_v0 i : BitVec 32)).toNat = b := by
  have hN : cfg0.N = 16 := N_0
  constructor
  · rintro ⟨k, hk, y, hy⟩
    rw [tile_apply] at hy
    exact ⟨_, hy⟩
  · rintro ⟨i, hi⟩
    have hi0 : (i 0).val < 32768 := (i 0).isLt
    have hi1 : (i 1).val < 512 := (i 1).isLt
    have hk : (i 0).val / 2048 < cfg0.N := by omega
    obtain ⟨s0, s1⟩ := tile_index ⟨(i 0).val / 2048, hk⟩
    have hmem : i ∈ ((cfg0.win 0).blk ⟨(i 0).val / 2048, hk⟩).view.set := by
      rw [mem_tile]
      intro a
      match a with
      | ⟨0, _⟩ => show win0_0.index _ (0 : Fin 2) * 2048 ≤ (i 0).val ∧ (i 0).val < win0_0.index _ (0 : Fin 2) * 2048 + 2048; rw [s0]; dsimp only; omega
      | ⟨1, _⟩ => show win0_0.index _ (1 : Fin 2) * 512 ≤ (i 1).val ∧ (i 1).val < win0_0.index _ (1 : Fin 2) * 512 + 512; rw [s1]; omega
    obtain ⟨y, hy⟩ := View.exists_emb_of_mem_set _ hmem
    refine ⟨(i 0).val / 2048, hk, y, ?_⟩
    rw [tile_apply, hy]
    exact hi

/-- The re-laid image is the image argument under the shape 32768 × 512 (the one host line before the grid). -/
theorem relaid_eq (c : Dev nD) :
    (V m c main_v0 : IVec S32768x512 32)
      = shapeCast S32768x512 (m ((c : Thread nD τ).loc main_arg0)) shapeCasts_S64x512x512_S32768x512 := by
  show StableHlo.after hostOps0 (fun b => m (c, b)) (Proc.devRef .tc main_v0) = _
  after_results
  rfl

/-- THE KERNEL'S GRID, READ: bit `b < 32` occurs in the result of the grid exactly when the label `b` occurs in the
    image. -/
theorem has_result (c : Dev nD) (b : ℕ) (hb : b < 32) :
    Has b ((dats m 0 c).arrAt 1 cfg0.N : IVec S2x8x512 32)
      ↔ ∃ i : S64x512x512.Idx, ((m ((c : Thread nD τ).loc main_arg0) i : BitVec 32)).toNat = b := by
  rw [has_result_tiles m c b hb, tiles_iff, relaid_eq]
  constructor
  · rintro ⟨j, hj⟩
    exact ⟨Shape.reshapeEquiv shapeCasts_S64x512x512_S32768x512 j, hj⟩
  · rintro ⟨i, hi⟩
    refine ⟨(Shape.reshapeEquiv shapeCasts_S64x512x512_S32768x512).symm i, ?_⟩
    show ((m ((c : Thread nD τ).loc main_arg0) (Shape.reshapeEquiv shapeCasts_S64x512x512_S32768x512 ((Shape.reshapeEquiv shapeCasts_S64x512x512_S32768x512).symm i)) : BitVec 32)).toNat = b
    rw [Equiv.apply_symm_apply]
    exact hi

end Cert.KernelIdeal.Acc

end
-- ==== Proof.KernelTail.lean ====
/-
  The host tail of the kernel's program, as pure functions.

  After its one call the program holds a 2 × 8 × 512 block of words, each the OR of the one-hot words
  `1 <<< label` of a part of the image. The tail turns the block into twenty numbers. First it ORs all
  the words of the block into ONE word (`tailWord`): the two 8 × 512 slabs are OR-ed, then the rows are
  halved 8 → 4 → 2 → 1, the one row of 512 words is re-laid as a column, and the column is halved
  512 → 256 → … → 1; every step is a re-laying or `lower half ||| upper half`, so the last word has a
  bit exactly when some word of the block has it. Then, for `k = 0 … 19`, it reads bit `k + 1` of that
  word (`tailBits`): the word is shifted right by the class `1 + k` and AND-ed with `1`, leaving the
  word `1` or `0`; and the twenty words are converted to numbers (`tailVec`), which read as extended
  reals are `1` and `0`.
-/
import proofs.«425760_j48533130444893_2_alg».proof.Proof.Gen.KernelIdeal
import proofs.«425760_j48533130444893_2_alg».proof.Proof.Presence
import Idealize.ShloMosaic.PureOps.Ideal
import Idealize.ShloMosaic.Lib.ValueIdx

noncomputable section

namespace Cert.KernelIdeal.Tail

open Idealize.ShloMosaic Cert.KernelIdeal Cert.KernelIdeal.Gen Cert.Presence

variable {F : FTy → Type} [FloatOps F]

/-! ## The three functions, line by line as the program has them -/

/-- Lines %2 … %45: all the words of the 2 × 8 × 512 block OR-ed into one. -/
def tailWord (A : IVec S2x8x512 32) : IVec S_ 32 :=
  have v2 : IVec S1x8x512 32 := extractStridedSlice S1x8x512 ![0, 0, 0] A slices_S2x8x512_S1x8x512_0_0_0 -- %2 = stablehlo.slice %1 [0:1, 0:8, 0:512]
  have v3 : IVec S8x512 32 := shapeCast S8x512 v2 shapeCasts_S1x8x512_S8x512 -- %3 = stablehlo.reshape %2
  have v4 : IVec S1x8x512 32 := extractStridedSlice S1x8x512 ![1, 0, 0] A slices_S2x8x512_S1x8x512_1_0_0 -- %4 = stablehlo.slice %1 [1:2, 0:8, 0:512]
  have v5 : IVec S8x512 32 := shapeCast S8x512 v4 shapeCasts_S1x8x512_S8x512 -- %5 = stablehlo.reshape %4
  have v6 : IVec S8x512 32 := ori v3 v5 -- %6 = stablehlo.or %3, %5
  have v7 : IVec S4x512 32 := extractStridedSlice S4x512 ![0, 0] v6 slices_S8x512_S4x512_0_0 -- %7 = stablehlo.slice %6 [0:4, 0:512]
  have v8 : IVec S4x512 32 := extractStridedSlice S4x512 ![4, 0] v6 slices_S8x512_S4x512_4_0 -- %8 = stablehlo.slice %6 [4:8, 0:512]
  have v9 : IVec S4x512 32 := ori v7 v8 -- %9 = stablehlo.or %7, %8
  have v10 : IVec S2x512 32 := extractStridedSlice S2x512 ![0, 0] v9 slices_S4x512_S2x512_0_0 -- %10 = stablehlo.slice %9 [0:2, 0:512]
  have v11 : IVec S2x512 32 := extractStridedSlice S2x512 ![2, 0] v9 slices_S4x512_S2x512_2_0 -- %11 = stablehlo.slice %9 [2:4, 0:512]
  have v12 : IVec S2x512 32 := ori v10 v11 -- %12 = stablehlo.or %10, %11
  have v13 : IVec S1x512 32 := extractStridedSlice S1x512 ![0, 0] v12 slices_S2x512_S1x512_0_0 -- %13 = stablehlo.slice %12 [0:1, 0:512]
  have v14 : IVec S1x512 32 := extractStridedSlice S1x512 ![1, 0] v12 slices_S2x512_S1x512_1_0 -- %14 = stablehlo.slice %12 [1:2, 0:512]
  have v15 : IVec S1x512 32 := ori v13 v14 -- %15 = stablehlo.or %13, %14
  have v16 : IVec S512 32 := shapeCast S512 v15 shapeCasts_S1x512_S512 -- %16 = stablehlo.reshape %15
  have v17 : IVec S512x1 32 := shapeCast S512x1 v16 shapeCasts_S512_S512x1 -- %17 = stablehlo.reshape %16
  have v18 : IVec S256x1 32 := extractStridedSlice S256x1 ![0, 0] v17 slices_S512x1_S256x1_0_0 -- %18 = stablehlo.slice %17 [0:256, 0:1]
  have v19 : IVec S256x1 32 := extractStridedSlice S256x1 ![256, 0] v17 slices_S512x1_S256x1_256_0 -- %19 = stablehlo.slice %17 [256:512, 0:1]
  have v20 : IVec S256x1 32 := ori v18 v19 -- %20 = stablehlo.or %18, %19
  have v21 : IVec S128x1 32 := extractStridedSlice S128x1 ![0, 0] v20 slices_S256x1_S128x1_0_0 -- %21 = stablehlo.slice %20 [0:128, 0:1]
  have v22 : IVec S128x1 32 := extractStridedSlice S128x1 ![128, 0] v20 slices_S256x1_S128x1_128_0 -- %22 = stablehlo.slice %20 [128:256, 0:1]
  have v23 : IVec S128x1 32 := ori v21 v22 -- %23 = stablehlo.or %21, %22
  have v24 : IVec S64x1 32 := extractStridedSlice S64x1 ![0, 0] v23 slices_S128x1_S64x1_0_0 -- %24 = stablehlo.slice %23 [0:64, 0:1]
  have v25 : IVec S64x1 32 := extractStridedSlice S64x1 ![64, 0] v23 slices_S128x1_S64x1_64_0 -- %25 = stablehlo.slice %23 [64:128, 0:1]
  have v26 : IVec S64x1 32 := ori v24 v25 -- %26 = stablehlo.or %24, %25
  have v27 : IVec S32x1 32 := extractStridedSlice S32x1 ![0, 0] v26 slices_S64x1_S32x1_0_0 -- %27 = stablehlo.slice %26 [0:32, 0:1]
  have v28 : IVec S32x1 32 := extractStridedSlice S32x1 ![32, 0] v26 slices_S64x1_S32x1_32_0 -- %28 = stablehlo.slice %26 [32:64, 0:1]
  have v29 : IVec S32x1 32 := ori v27 v28 -- %29 = stablehlo.or %27, %28
  have v30 : IVec S16x1 32 := extractStridedSlice S16x1 ![0, 0] v29 slices_S32x1_S16x1_0_0 -- %30 = stablehlo.slice %29 [0:16, 0:1]
  have v31 : IVec S16x1 32 := extractStridedSlice S16x1 ![16, 0] v29 slices_S32x1_S16x1_16_0 -- %31 = stablehlo.slice %29 [16:32, 0:1]
  have v32 : IVec S16x1 32 := ori v30 v31 -- %32 = stablehlo.or %30, %31
  have v33 : IVec S8x1 32 := extractStridedSlice S8x1 ![0, 0] v32 slices_S16x1_S8x1_0_0 -- %33 = stablehlo.slice %32 [0:8, 0:1]
  have v34 : IVec S8x1 32 := extractStridedSlice S8x1 ![8, 0] v32 slices_S16x1_S8x1_8_0 -- %34 = stablehlo.slice %32 [8:16, 0:1]
  have v35 : IVec S8x1 32 := ori v33 v34 -- %35 = stablehlo.or %33, %34
  have v36 : IVec S4x1 32 := extractStridedSlice S4x1 ![0, 0] v35 slices_S8x1_S4x1_0_0 -- %36 = stablehlo.slice %35 [0:4, 0:1]
  have v37 : IVec S4x1 32 := extractStridedSlice S4x1 ![4, 0] v35 slices_S8x1_S4x1_4_0 -- %37 = stablehlo.slice %35 [4:8, 0:1]
  have v38 : IVec S4x1 32 := ori v36 v37 -- %38 = stablehlo.or %36, %37
  have v39 : IVec S2x1 32 := extractStridedSlice S2x1 ![0, 0] v38 slices_S4x1_S2x1_0_0 -- %39 = stablehlo.slice %38 [0:2, 0:1]
  have v40 : IVec S2x1 32 := extractStridedSlice S2x1 ![2, 0] v38 slices_S4x1_S2x1_2_0 -- %40 = stablehlo.slice %38 [2:4, 0:1]
  have v41 : IVec S2x1 32 := ori v39 v40 -- %41 = stablehlo.or %39, %40
  have v42 : IVec S1x1 32 := extractStridedSlice S1x1 ![0, 0] v41 slices_S2x1_S1x1_0_0 -- %42 = stablehlo.slice %41 [0:1, 0:1]
  have v43 : IVec S1x1 32 := extractStridedSlice S1x1 ![1, 0] v41 slices_S2x1_S1x1_1_0 -- %43 = stablehlo.slice %41 [1:2, 0:1]
  have v44 : IVec S1x1 32 := ori v42 v43 -- %44 = stablehlo.or %42, %43
  have v45 : IVec S_ 32 := shapeCast S_ v44 shapeCasts_S1x1_S_ -- %45 = stablehlo.reshape %44
  v45

/-- Lines %46 … %52: for each `k < 20`, the word `(s >>ₛ (1 + k)) &&& 1`. -/
def tailBits (s : IVec S_ 32) : IVec S20 32 :=
  have v46 : IVec S20 32 := iotaInDim S20 32 0 -- %46 = stablehlo.iota dim = 0
  have c : IVec S_ 32 := constantI S_ 32 1#32 -- %c = stablehlo.constant dense<1>
  have v47 : IVec S20 32 := broadcastInDim S20 ![] bcast_S_S20 c -- %47 = stablehlo.broadcast_in_dim %c, dims = []
  have v48 : IVec S20 32 := addi v47 v46 -- %48 = stablehlo.add %47, %46
  have v49 : IVec S20 32 := broadcastInDim S20 ![] bcast_S_S20 s -- %49 = stablehlo.broadcast_in_dim %45, dims = []
  have v50 : IVec S20 32 := Host.shrsi v49 v48 -- %50 = stablehlo.shift_right_arithmetic %49, %48
  have c_0 : IVec S_ 32 := constantI S_ 32 1#32 -- %c_0 = stablehlo.constant dense<1>
  have v51 : IVec S20 32 := broadcastInDim S20 ![] bcast_S_S20 c_0 -- %51 = stablehlo.broadcast_in_dim %c_0, dims = []
  have v52 : IVec S20 32 := andi v50 v51 -- %52 = stablehlo.and %50, %51
  v52

/-- Line %53: the twenty words as numbers. -/
def tailVec (s : IVec S_ 32) : FVec F S20 .f32 := sitofp .f32 (tailBits s) -- %53 = stablehlo.convert %52

/-! ## The OR of the block -/

/-- The one word the tail reduces the block to has bit `b` exactly when some word of the block has it:
    re-layings keep the words, the two slabs cover the block, and each halving keeps the occurring bits. -/
theorem has_tailWord (b : ℕ) (A : IVec S2x8x512 32) : Has b (tailWord A) ↔ Has b A := by
  unfold tailWord
  dsimp only
  rw [has_shapeCast,
    has_halve_rows (n := 1) (k := 1) rfl, has_halve_rows (n := 2) (k := 1) rfl, has_halve_rows (n := 4) (k := 1) rfl,
    has_halve_rows (n := 8) (k := 1) rfl, has_halve_rows (n := 16) (k := 1) rfl, has_halve_rows (n := 32) (k := 1) rfl,
    has_halve_rows (n := 64) (k := 1) rfl, has_halve_rows (n := 128) (k := 1) rfl, has_halve_rows (n := 256) (k := 1) rfl,
    has_shapeCast, has_shapeCast,
    has_halve_rows (n := 1) (k := 512) rfl, has_halve_rows (n := 2) (k := 512) rfl, has_halve_rows (n := 4) (k := 512) rfl,
    has_ori, has_shapeCast, has_shapeCast]
  exact has_two_slabs b A _ _

/-! ## Reading bit `k + 1` -/

/-- A rank-0 operand broadcast to twenty places is, at each place, its one word. -/
theorem bcast_apply (x : IVec S_ 32) (k : S20.Idx) :
    broadcastInDim S20 ![] bcast_S_S20 x k = x ValueIdx.ix0 := by
  unfold broadcastInDim
  exact congrArg x (funext fun a => a.elim0)

/-- AND with the word `1` keeps bit `0` alone: the result is the word `1` or the word `0`. -/
theorem and_one (x : BitVec 32) : x &&& 1#32 = if x.getLsbD 0 = true then 1#32 else 0#32 := by
  apply BitVec.eq_of_getLsbD_eq
  intro i hi
  rw [BitVec.getLsbD_and, BitVec.getLsbD_one]
  by_cases h : x.getLsbD 0 = true
  · rw [if_pos h, BitVec.getLsbD_one]
    by_cases hi0 : i = 0
    · subst hi0; simp [h]
    · simp [hi0]
  · rw [if_neg h, BitVec.getLsbD_zero]
    by_cases hi0 : i = 0
    · subst hi0; simp at h; simp [h]
    · simp [hi0]

/-- The class asked for at place `k` is `k + 1`. -/
theorem class_toNat (k : ℕ) (hk : k < 20) : (IntOp.addi (1#32) (BitVec.ofNat 32 k)).toNat = k + 1 := by
  unfold IntOp.addi
  rw [BitVec.toNat_add, BitVec.toNat_ofNat]
  simp only [BitVec.toNat_ofNat]
  omega

/-- Bit `0` of the word shifted right (arithmetically) by `y < 32` places is bit `y` of the word. -/
theorem shrsi_getLsbD_zero (x y : BitVec 32) (hy : y.toNat < 32) :
    (IntOp.shrsi .host x y).getLsbD 0 = x.getLsbD y.toNat := by
  unfold IntOp.shrsi
  rw [if_pos hy, BitVec.sshiftRight_eq', BitVec.getLsbD_sshiftRight]
  simp [hy]

/-- Place `k` of the tail's twenty words is `1` when bit `k + 1` of the word is set, else `0`. -/
theorem tailBits_apply (s : IVec S_ 32) (k : S20.Idx) :
    tailBits s k = if (s ValueIdx.ix0).getLsbD ((k 0).val + 1) = true then 1#32 else 0#32 := by
  have hk : (k 0).val < 20 := (k 0).isLt
  have hc : (IntOp.addi (1#32) (BitVec.ofNat 32 (k 0).val)).toNat = (k 0).val + 1 := class_toNat _ hk
  show IntOp.andi (IntOp.shrsi .host (broadcastInDim S20 ![] bcast_S_S20 s k)
      (IntOp.addi (broadcastInDim S20 ![] bcast_S_S20 (constantI S_ 32 1#32) k) (iotaInDim S20 32 0 k)))
      (broadcastInDim S20 ![] bcast_S_S20 (constantI S_ 32 1#32) k) = _
  rw [bcast_apply, bcast_apply]
  show (IntOp.shrsi .host (s ValueIdx.ix0) (IntOp.addi (1#32) (BitVec.ofNat 32 (k 0).val))) &&& 1#32 = _
  rw [and_one, shrsi_getLsbD_zero _ _ (by rw [hc]; omega), hc]

/-- Read as extended reals, the twenty numbers are `1` where bit `k + 1` of the word is set and `0` elsewhere. -/
theorem tailVec_apply (s : IVec S_ 32) (k : S20.Idx) :
    tailVec (F := Ideal) s k = if (s ValueIdx.ix0).getLsbD ((k 0).val + 1) = true then (1 : EReal) else 0 := by
  show (((tailBits s k).toInt : ℝ) : EReal) = _
  rw [tailBits_apply]
  by_cases h : (s ValueIdx.ix0).getLsbD ((k 0).val + 1) = true
  · rw [if_pos h, if_pos h]
    have : (1#32 : BitVec 32).toInt = 1 := by decide
    rw [this, Int.cast_one, EReal.coe_one]
  · rw [if_neg h, if_neg h]
    have : (0#32 : BitVec 32).toInt = 0 := by decide
    rw [this, Int.cast_zero, EReal.coe_zero]

end Cert.KernelIdeal.Tail

end
-- ==== Proof.Spec.lean ====
/-
  The common value of the two programs, stated once.

  Both programs end by turning twenty yes/no answers into a number: answer `k` (for `k = 0 … 19`) is whether
  the class `k + 1` occurs anywhere in the image of class labels; the answers are written as `1` or `0`,
  summed, and the sum is divided by twenty-one. Class `0` is never asked for, and a label outside
  `1 … 20` (negative, or twenty-one and above) answers no question. The kernel finds the answers by
  OR-ing one-hot words `1 <<< label` over the whole image and reading bit `k + 1` of the result; the
  reference by counting, per class, the labels equal to it and asking whether the count is positive.
  This module names the answers (`Occurs`) and their `0/1` vector (`indicator`); the two sides are each
  proved equal to it elsewhere.
-/
import Idealize.ShloMosaic.PureOps.Ideal

noncomputable section

namespace Cert.Spec

open Idealize.ShloMosaic

/-- The image of class labels: 64 × 512 × 512 words. -/
abbrev Img : Shape := ⟨3, ![64, 512, 512]⟩
/-- The twenty questions, one per class `1 … 20`. -/
abbrev Cls : Shape := ⟨1, ![20]⟩

/-- Class `k + 1` occurs: some word of the image, read as an unsigned number, is `k + 1`. -/
def Occurs (x : IVec Img 32) (k : Cls.Idx) : Prop := ∃ i : Img.Idx, (x i).toNat = (k 0).val + 1

open Classical in
/-- The answers as extended reals: `1` where the class occurs, `0` where it does not. -/
def indicator (x : IVec Img 32) : FVec Ideal Cls .f32 := fun k => if Occurs x k then (1 : EReal) else 0

end Cert.Spec

end
-- ==== Proof.KernelResult.lean ====
/-
  The kernel's run, read: its result is the common quotient of the specification's answers.

  The grid leaves a 2 × 8 × 512 block of words in which bit `b < 32` occurs exactly when the label `b` occurs in
  the image. The host lines after the grid OR that block down to one word by halvings (which keep the set of
  occurring bits), read bit `k + 1` of the word for `k = 0 … 19` as `1` or `0`, sum the twenty numbers and divide by
  twenty-one. So answer `k` is `1` exactly when the class `k + 1` occurs in the image: the specification's
  answers, under the same sum and the same division as the reference's.
-/
import proofs.«425760_j48533130444893_2_alg».proof.Proof.KernelAcc
import proofs.«425760_j48533130444893_2_alg».proof.Proof.KernelTail
import proofs.«425760_j48533130444893_2_alg».proof.Proof.Spec
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen Cert.Presence Cert.KernelIdeal.Tail Cert.KernelIdeal.Acc

variable {F : FTy → Type} [FloatOps F]

/-- The last two lines of both programs: the sum of twenty numbers over zero, divided by twenty-one. -/
def quotient (v : FVec F S20 .f32) : FVec F S_ .f32 :=
  Host.divf (Host.reduceAdd v (constant S_ .f32 0x00000000#32) reducesTo_S20_S_d0 h_S_) (constant S_ .f32 0x41A80000#32)

set_option maxHeartbeats 2000000 in
/-- The host lines after the grid, from any contents `W` of the buffers: the result is the quotient of the
    twenty bits of the one word the grid's block ORs down to. -/
theorem tail_eq (W : Valuation τ sig (Elt F)) :
    (after hostOps1 W (Proc.devRef .tc main_v55) : FVec F S_ .f32)
      = quotient (tailVec (F := F) (tailWord (W (Proc.devRef .tc main_v1)))) := by
  after_results_simp
  rfl

variable (m : (ℓ : Loc nD τ sig) → Buf (Elt F) ℓ) (ρ : Dev nD → PrngReg)

/-- THE RUN: every weakly fair execution ends with the result at the quotient of the bits of the grid's block,
    the arguments unchanged. -/
theorem run : θ_run defs (onTc (τ := τ) (main (F := F))) ⟨m, fun _ => 0, ρ⟩ fun r => ∀ c : Dev nD,
      r.2.mem ((c.tc : Thread nD τ).loc main_v55) = quotient (tailVec (F := F) (tailWord ((dats m 0 c).arrAt 1 cfg0.N)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v55 (Pipeline.mem_restRefs_of main_v55 (by decide) (by decide))).trans (by
        unfold Pipeline.afterTail₀
        simp only [List.flatten_cons, List.flatten_nil, List.append_nil]
        exact (tail_eq _).trans (congrArg (fun A => quotient (tailVec (F := F) (tailWord A)))
          (Pipeline.withArrays_arr spec0 launch0.win.arr_inj c _ _ 1))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- A single word has bit `b` exactly when "some word of it" has. -/
theorem has_word (s : IVec S_ 32) (b : ℕ) : Has b s ↔ (s ValueIdx.ix0).getLsbD b = true := by
  constructor
  · rintro ⟨i, hi⟩
    rw [ValueIdx.eq_ix0 i] at hi
    exact hi
  · intro h
    exact ⟨ValueIdx.ix0, h⟩

end Cert.KernelIdeal.Result

namespace Cert.KernelIdeal.Result

open Idealize.ShloMosaic Idealize.ShloMosaic.TcCoe Idealize.SL.Sem
open Cert.KernelIdeal Cert.KernelIdeal.Gen Cert.Presence Cert.KernelIdeal.Tail Cert.KernelIdeal.Acc

/-- At the exact instance the kernel's twenty answers are the specification's. -/
theorem answers (m : (ℓ : Loc nD τ sig) → Buf (Elt Ideal) ℓ) (c : Dev nD) :
    tailVec (F := Ideal) (tailWord ((dats m 0 c).arrAt 1 cfg0.N))
      = Cert.Spec.indicator (m ((c.tc : Thread nD τ).loc main_arg0)) := by
  funext k
  rw [tailVec_apply]
  have hk : (k 0).val < 20 := (k 0).isLt
  have hb : (k 0).val + 1 < 32 := by omega
  have key : (tailWord ((dats m 0 c).arrAt 1 cfg0.N) ValueIdx.ix0).getLsbD ((k 0).val + 1) = true
      ↔ Cert.Spec.Occurs (m ((c.tc : Thread nD τ).loc main_arg0)) k := by
    rw [← has_word, has_tailWord, has_result m c _ hb]
    exact Iff.rfl
  unfold Cert.Spec.indicator
  by_cases h : Cert.Spec.Occurs (m ((c.tc : Thread nD τ).loc main_arg0)) k
  · rw [if_pos h, if_pos (key.mpr h)]
  · rw [if_neg h, if_neg (fun h' => h (key.mp h'))]

end Cert.KernelIdeal.Result

end
-- ==== Proof.RefCount.lean ====
/-
  The reference side: the reference's twenty 0/1 answers are the specification's.

  The reference flattens the image, clips every word below at 0 (signed), and scatter-ADDS a one into
  one of twenty-one bins for every word: the bin is the clipped word read signed, and a word outside
  0 … 20 is dropped. Bin b therefore ends at the NUMBER of image words whose clipped value is b, as a
  32-bit word. For b = 1 … 20 the clipped value is b exactly when the word itself, read unsigned, is b.
  There are 2^24 words, so the count stays below 2^31: it does not wrap, and as a signed word it is
  positive exactly when at least one image word equals b. The answer "bin > 0" written as 1 or 0 is
  thus the specification's indicator of "class b occurs".
-/
import proofs.«425760_j48533130444893_2_alg».proof.Proof.Spec
import proofs.«425760_j48533130444893_2_alg».proof.Proof.Gen.ReferenceIdeal.Read

noncomputable section

namespace Cert.RefCount

open Cert.ReferenceIdeal Cert.ReferenceIdeal.Gen Cert.ReferenceIdeal.Read Idealize.ShloMosaic

/-- A scatter that adds the word `1` at every update: bin `i` ends at its start value plus the NUMBER of update
    positions whose result index is `i` (the count as a 32-bit word). -/
theorem scatter_add_one {s si u : Shape} {w : Nat} (d : ScatterDims s si u) (x : s.Idx → BitVec 32) (idx : IVec si w)
    (upd : u.Idx → BitVec 32) (hupd : ∀ j, upd j = 1#32) (i : s.Idx) :
    Host.scatter d IntOp.addi x idx upd i
      = x i + BitVec.ofNat 32 ((List.finRange u.numel).countP fun n => d.resultIdx? (u.rowMajor.symm n) idx = some i) := by
  unfold Host.scatter
  generalize List.finRange u.numel = L
  induction L generalizing x with
  | nil => simp
  | cons n L ih =>
    rw [List.foldl_cons, ih, List.countP_cons]
    cases hg : d.resultIdx? (u.rowMajor.symm n) idx with
    | none => simp
    | some k =>
      by_cases hik : i = k
      · subst hik
        simp [IntOp.addi, hupd, BitVec.ofNat_add, BitVec.add_assoc, BitVec.add_comm]
      · have hne : ¬ (k = i) := fun h => hik h.symm
        simp [hik, hne]

/-- The reference's index word: the image word clipped below at `0` (signed), then `21` added where the
    clipped word is negative (nowhere). Read signed it is a class `b` in `1 … 20` exactly when the image word,
    read unsigned, is `b`. -/
theorem clip_toInt (w : BitVec 32) (b : Nat) (h1 : 1 ≤ b) (h20 : b ≤ 20) :
    (Scalar.select (IntOp.cmpi .slt (IntOp.maxsi 0#32 w) 0#32) (IntOp.addi (IntOp.maxsi 0#32 w) 21#32) (IntOp.maxsi 0#32 w)).toInt = (b : Int)
      ↔ w.toNat = b := by
  have hw := w.isLt
  by_cases h : w.slt 0#32 = true
  · have hneg : w.toInt < 0 := by simpa [BitVec.slt] using h
    have hc : IntOp.maxsi 0#32 w = 0#32 := by simp [IntOp.maxsi, h]
    rw [hc]
    have : IntOp.cmpi .slt 0#32 0#32 = 0#1 := by decide
    rw [this]
    simp only [Scalar.select]
    rw [if_neg (by decide)]
    rw [BitVec.toInt_eq_toNat_cond] at hneg
    constructor
    · intro h0; simp at h0; omega
    · intro hb; exfalso; split at hneg <;> omega
  · have hpos : 0 ≤ w.toInt := by
      have : ¬ (w.toInt < 0) := by simpa [BitVec.slt] using h
      omega
    have hc : IntOp.maxsi 0#32 w = w := by simp [IntOp.maxsi, h]
    rw [hc]
    have : IntOp.cmpi .slt w 0#32 = 0#1 := by
      simp only [IntOp.cmpi]
      have : w.slt 0#32 = false := by simpa using h
      rw [this]; rfl
    rw [this]
    simp only [Scalar.select]
    rw [if_neg (by decide)]
    rw [BitVec.toInt_eq_toNat_cond] at hpos ⊢
    split at hpos <;> split <;> omega

/-- A count below `2^31`, as a 32-bit word added to `0`, is positive signed exactly when it is positive. -/
theorem sgt_count (N : Nat) (hN : N < 2 ^ 31) :
    IntOp.cmpi .sgt (0#32 + BitVec.ofNat 32 N) 0#32 = BitVec.ofBool (decide (0 < N)) := by
  simp only [IntOp.cmpi, BitVec.zero_add]
  congr 1
  simp only [BitVec.slt, BitVec.toInt_zero]
  have : (BitVec.ofNat 32 N).toInt = (N : Int) := by
    rw [BitVec.toInt_eq_toNat_cond, BitVec.toNat_ofNat]
    have : N % 2 ^ 32 = N := Nat.mod_eq_of_lt (by omega)
    rw [this]; split <;> omega
  rw [this]
  simp

/-- The one-bit answer as an extended real: `1` for yes, `0` for no. -/
theorem uitofp_ofBool (p : Bool) :
    (FloatOps.uitofp (F := Ideal) .f32 (BitVec.ofBool p) : EReal) = if p then 1 else 0 := by
  cases p
  · show (((0#1).toNat : ℝ) : EReal) = 0
    simp
  · show (((1#1).toNat : ℝ) : EReal) = 1
    simp

/-- The reference's scatter dimension numbers: twenty-one bins, one index per update, no window. -/
abbrev dS : ScatterDims S21 S16777216x1 S16777216 := scatter_S21_S16777216x1_S16777216_n_0_0_1

/-- Row `j` of the one-column index array. -/
abbrev row (j : S16777216.Idx) : S16777216x1.Idx := fun a => match a with
  | ⟨0, _⟩ => ⟨(j 0).val, (j 0).isLt⟩
  | ⟨1, _⟩ => ⟨0, by show 0 < 1; omega⟩

/-- Update position `j` reads its index at row `j` of the index column. -/
theorem siIdx_eq (j : S16777216.Idx) (c : Fin dS.scatterDimsToOperandDims.length) :
    dS.siIdx j c = row j := by
  funext b
  apply Fin.ext
  match b with
  | ⟨0, _⟩ =>
    unfold ScatterDims.siIdx
    split
    · rename_i hb; exact absurd hb (show ¬ ((0 : Nat) = 1) by omega)
    · unfold ScatterDims.siCoord
      exact congrArg (fun e => (j e).val) (Subsingleton.elim _ _)
  | ⟨1, _⟩ =>
    unfold ScatterDims.siIdx
    split
    · have : c.val < 1 := c.isLt
      show c.val = 0
      omega
    · rename_i hb; exact absurd rfl hb

/-- The start of update `j` on the one bin axis is its index word read signed. -/
theorem start_eq (j : S16777216.Idx) (idx : IVec S16777216x1 32) (a : Fin S21.rank) :
    dS.start j idx a = (idx (row j)).toInt := by
  have ha : a ∈ dS.scatterDimsToOperandDims := by
    have : a = 0 := Subsingleton.elim _ _
    subst this
    show (0 : Fin 1) ∈ [0]
    simp
  unfold ScatterDims.start
  rw [dif_pos ha]
  exact congrArg (fun q => (idx q).toInt) (siIdx_eq j _)

/-- There is no window: the window coordinate is `0`. -/
theorem window_eq (j : S16777216.Idx) (a : Fin S21.rank) : dS.window j a = 0 := by
  have ha : a ∉ dS.sKept := by
    have : a = 0 := Subsingleton.elim _ _
    subst this
    show (0 : Fin 1) ∉ S21.kept [0]
    decide
  unfold ScatterDims.window
  rw [dif_neg ha]

/-- Update `j` lands in bin `i` exactly when its index word, read signed, is `i`; any other index is dropped. -/
theorem resultIdx_iff (j : S16777216.Idx) (idx : IVec S16777216x1 32) (i : S21.Idx) :
    dS.resultIdx? j idx = some i ↔ (idx (row j)).toInt = ((i 0).val : Int) := by
  have hi : (i 0).val < 21 := (i 0).isLt
  unfold ScatterDims.resultIdx?
  split
  · rename_i h
    rw [Option.some.injEq]
    constructor
    · intro e
      have h0 := h 0
      rw [start_eq, window_eq] at h0
      have e0 : ((dS.start j idx 0 + (dS.window j 0 : Nat)).toNat : Int) = ((i 0).val : Int) :=
        congrArg (fun f : S21.Idx => ((f 0).val : Int)) e
      rw [start_eq, window_eq] at e0
      omega
    · intro e
      funext a
      have : a = 0 := Subsingleton.elim _ _
      subst this
      apply Fin.ext
      show (dS.start j idx 0 + (dS.window j 0 : Nat)).toNat = (i 0).val
      rw [start_eq, window_eq]
      omega
  · rename_i h
    constructor
    · intro e; exact absurd e (by simp)
    · intro e
      exfalso; apply h
      intro a
      have : a = 0 := Subsingleton.elim _ _
      subst this
      rw [start_eq, window_eq]
      show 0 ≤ _ + ((0 : Nat) : Int) ∧ _ + ((0 : Nat) : Int) < ((21 : Nat) : Int)
      omega

/-- The index word of update `j`: the image word at the flattened position `j`, clipped, with the (idle) wrap of negatives. -/
theorem idx_word (x0 : (⟨S64x512x512, .i32⟩ : BufTy).Contents (Elt Ideal)) (j : S16777216.Idx) :
    val_main_v8 (F := Ideal) x0 (row j)
      = Scalar.select
          (IntOp.cmpi .slt (IntOp.maxsi 0#32 (x0 (Shape.reshapeEquiv shapeCasts_S64x512x512_S16777216 j))) 0#32)
          (IntOp.addi (IntOp.maxsi 0#32 (x0 (Shape.reshapeEquiv shapeCasts_S64x512x512_S16777216 j))) 21#32)
          (IntOp.maxsi 0#32 (x0 (Shape.reshapeEquiv shapeCasts_S64x512x512_S16777216 j))) := by
  have hj : idx_main_v8 (row j) = j := by
    funext a
    match a with
    | ⟨0, _⟩ => rfl
  rw [val_main_v8_apply, hj, val_main_v7_apply, val_main_v4_apply, val_main_v6_apply, val_main_v2_apply,
    val_main_v3_apply, val_main_c_1_apply, val_main_v5_apply, val_main_c_2_apply, val_main_call0_v1_apply,
    val_main_call0_v0_apply, val_main_c_0_apply]
  rfl

/-- Some update lands in bin `k + 1` exactly when class `k + 1` occurs in the image. -/
theorem exists_hit_iff (x0 : (⟨S64x512x512, .i32⟩ : BufTy).Contents (Elt Ideal)) (k : S20.Idx) :
    (∃ n : Fin S16777216.numel, dS.resultIdx? (S16777216.rowMajor.symm n) (val_main_v8 (F := Ideal) x0) = some (idx_main_v11 k))
      ↔ Cert.Spec.Occurs x0 k := by
  have hk : (k 0).val < 20 := (k 0).isLt
  have hb : ((idx_main_v11 k 0).val : Int) = (((k 0).val + 1 : Nat) : Int) := by
    show ((1 + (k 0).val : Nat) : Int) = _
    omega
  constructor
  · rintro ⟨n, hn⟩
    rw [resultIdx_iff, idx_word, hb, clip_toInt _ _ (by omega) (by omega)] at hn
    exact ⟨_, hn⟩
  · rintro ⟨i, hi⟩
    refine ⟨S16777216.rowMajor ((Shape.reshapeEquiv shapeCasts_S64x512x512_S16777216).symm i), ?_⟩
    rw [Equiv.symm_apply_apply, resultIdx_iff, idx_word, hb, clip_toInt _ _ (by omega) (by omega),
      Equiv.apply_symm_apply]
    exact hi

/-- There are `2^24` updates. -/
theorem numel_flat : S16777216.numel = 16777216 := Shape.numel_rank1 _

/-- The reference's twenty `0/1` answers are the specification's. -/
theorem ref_indicator (x0 : (⟨Cert.ReferenceIdeal.S64x512x512, .i32⟩ : BufTy).Contents (Elt Ideal)) :
    Cert.ReferenceIdeal.Read.val_main_v14 (F := Ideal) x0 = Cert.Spec.indicator x0 := by
  funext k
  rw [val_main_v14_apply, val_main_v13_apply, val_main_v11_apply, val_main_v12_apply, val_main_c_4_apply]
  unfold val_main_v10
  rw [scatter_add_one _ _ _ _ (fun j => by rw [val_main_v9_apply, val_main_c_3_apply]),
    val_main_v1_apply, val_main_c_apply]
  have hN : (List.finRange S16777216.numel).countP
      (fun n => dS.resultIdx? (S16777216.rowMajor.symm n) (val_main_v8 (F := Ideal) x0) = some (idx_main_v11 k)) < 2 ^ 31 := by
    have h := List.countP_le_length (p := fun n => decide (dS.resultIdx? (S16777216.rowMajor.symm n) (val_main_v8 (F := Ideal) x0) = some (idx_main_v11 k)))
      (l := List.finRange S16777216.numel)
    rw [List.length_finRange] at h
    have h2 := numel_flat
    omega
  rw [sgt_count _ hN, uitofp_ofBool]
  unfold Cert.Spec.indicator
  have hiff : 0 < (List.finRange S16777216.numel).countP
      (fun n => dS.resultIdx? (S16777216.rowMajor.symm n) (val_main_v8 (F := Ideal) x0) = some (idx_main_v11 k))
      ↔ Cert.Spec.Occurs x0 k := by
    rw [List.countP_pos_iff, ← exists_hit_iff]
    constructor
    · rintro ⟨n, _, hn⟩; exact ⟨n, of_decide_eq_true hn⟩
    · rintro ⟨n, hn⟩; exact ⟨n, List.mem_finRange n, decide_eq_true hn⟩
  by_cases hO : Cert.Spec.Occurs x0 k
  · rw [if_pos hO, decide_eq_true (hiff.2 hO)]; rfl
  · rw [if_neg hO, decide_eq_false (fun h => hO (hiff.1 h))]; rfl

end Cert.RefCount

end
-- ==== Proof.lean ====
/-
  The proof of `Cert.Claim`: the kernel's entry point and its jnp reference compute, over the extended reals, the
  same number — the count of the classes `1 … 20` that occur in the image of labels, divided by twenty-one.

  The three frames: the two kernel programs' are the generated frame certificates; the reference, a straight line
  of host operations, runs by its generated run. The idealization rewrote nothing, so `preserves` is `True`.
  `algebraic`: the kernel ORs the one-hot words `1 <<< label` of the whole image — a grid of sixteen tiles
  accumulated per core (Proof/KernelTile.lean, Proof/KernelPieces.lean, Proof/KernelAcc.lean), then halved down to
  one word on the host (Proof/KernelTail.lean) — and reads bit `k + 1` as its answer for class `k + 1`
  (Proof/KernelResult.lean); the reference counts, per class, the labels equal to it and asks whether the count is
  positive (Proof/RefCount.lean). Both answers are "the class occurs in the image" (Proof/Spec.lean), written `1` or
  `0`, and both programs then take the same sum and the same quotient of them. A label outside `1 … 20` answers no
  question on either side: the one-hot word of a label `≥ 32` read unsigned (a negative one included) is zero and bits
  `0` and `21 … 31` are never read; the count drops labels above twenty and puts the clipped negative ones in bin zero.
-/
import proofs.«425760_j48533130444893_2_alg».proof.Defs
import proofs.«425760_j48533130444893_2_alg».proof.Proof.Gen.Kernel
import proofs.«425760_j48533130444893_2_alg».proof.Proof.Gen.Kernel.Skeleton
import proofs.«425760_j48533130444893_2_alg».proof.Proof.Gen.Kernel.Launch
import proofs.«425760_j48533130444893_2_alg».proof.Proof.Gen.Kernel.Points
import proofs.«425760_j48533130444893_2_alg».proof.Proof.Gen.Kernel.Frame
import proofs.«425760_j48533130444893_2_alg».proof.Proof.Gen.KernelIdeal
import proofs.«425760_j48533130444893_2_alg».proof.Proof.Gen.KernelIdeal.Skeleton
import proofs.«425760_j48533130444893_2_alg».proof.Proof.Gen.KernelIdeal.Launch
import proofs.«425760_j48533130444893_2_alg».proof.Proof.Gen.KernelIdeal.Points
import proofs.«425760_j48533130444893_2_alg».proof.Proof.Gen.KernelIdeal.Frame
import proofs.«425760_j48533130444893_2_alg».proof.Proof.Gen.ReferenceIdeal
import proofs.«425760_j48533130444893_2_alg».proof.Proof.Gen.Pre_any_inputs
import proofs.«425760_j48533130444893_2_alg».proof.Proof.Gen.ReferenceIdeal.Run
import proofs.«425760_j48533130444893_2_alg».proof.Proof.Gen.ReferenceIdeal.Read
import proofs.«425760_j48533130444893_2_alg».proof.Proof.KernelResult
import proofs.«425760_j48533130444893_2_alg».proof.Proof.RefCount
import Idealize.ShloMosaic.Adequacy
import Idealize.ShloMosaic.Init

noncomputable section

namespace Cert.Proof

open Idealize.ShloMosaic Idealize.ShloMosaic.TcCoe Idealize.SL.Sem

/-- The reference's result is the common quotient of the specification's answers: its twenty `0/1` numbers are the
    answers (the count of a class is positive exactly when the class occurs), and its last two lines are the sum
    and the division. -/
theorem reference_result (x0 : (⟨Cert.ReferenceIdeal.S64x512x512, .i32⟩ : BufTy).Contents (Elt Ideal)) :
    Cert.ReferenceIdeal.Read.val_main_v16 (F := Ideal) x0
      = Cert.KernelIdeal.Result.quotient (F := Ideal) (Cert.Spec.indicator x0) := by
  unfold Cert.ReferenceIdeal.Read.val_main_v16 Cert.ReferenceIdeal.Read.val_main_v15
  rw [Cert.RefCount.ref_indicator]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the image, both programs end at the quotient of the image's answers. -/
theorem algebraic : Cert.algebraic_KernelIdeal_ReferenceIdeal := by
  intro m ρ m' ρ' _ hagree
  refine ⟨fun c => Cert.KernelIdeal.Result.quotient (F := Ideal)
      (Cert.Spec.indicator (m ((c.tc : Thread Cert.KernelIdeal.nD Cert.KernelIdeal.τ).loc Cert.KernelIdeal.main_arg0))), ?_, ?_⟩
  · refine (θ_run Cert.KernelIdeal.defs _ _).mono (fun _ h c => ⟨(h c).1.trans ?_, (h c).2⟩)
      (Cert.KernelIdeal.Result.run (F := Ideal) m ρ)
    rw [Cert.KernelIdeal.Result.answers]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1]
    exact reference_result _

theorem claim : Cert.Claim :=
  ⟨Cert.Kernel.Gen.facts, Cert.KernelIdeal.Gen.facts, Cert.ReferenceIdeal.Gen.facts, Cert.Pre_any_inputs.Gen.facts,
    frame_kernel, frame_kernelIdeal, frame_referenceIdeal, trivial, algebraic⟩

end Cert.Proof

end
